-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x240x320 : Shape := ⟨4, ![4, 1, 240, 320]⟩
abbrev S4x256 : Shape := ⟨2, ![4, 256]⟩
abbrev S_ : Shape := ⟨0, ![]⟩

class Facts : Prop where
  bcast_S_S4x1x240x320 : S_.BroadcastsInDim S4x1x240x320 (![] : Fin 0 → Fin S4x1x240x320.rank)
  reducesTo_S4x1x240x320_S_d0_1_2_3 : S4x1x240x320.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x1x240x320 .f32) (main_arg1 : FVec F S4x256 .f32) : IVec S_ 1 :=
  let main_v0 : FVec F S4x1x240x320 .f32 := Host.absf main_arg0
  let main_cst : FVec F S_ .f32 := constant S_ .f32 0x7F800000#32
  let main_v1 : FVec F S4x1x240x320 .f32 := broadcastInDim S4x1x240x320 ![] bcast_S_S4x1x240x320 main_cst
  let main_v2 : IVec S4x1x240x320 1 := cmpf .olt main_v0 main_v1
  let main_c : IVec S_ 1 := constantI S_ 1 1#1
  let main_v3 : IVec S_ 1 := (fun x v => Host.reduce IntOp.andi x v reducesTo_S4x1x240x320_S_d0_1_2_3 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x1x240x320 : Shape := ⟨4, ![4, 1, 240, 320]⟩
abbrev S4x256 : Shape := ⟨2, ![4, 256]⟩
abbrev S_ : Shape := ⟨0, ![]⟩
abbrev S4x1 : Shape := ⟨2, ![4, 1]⟩
abbrev S4x1x1x1 : Shape := ⟨4, ![4, 1, 1, 1]⟩
abbrev S4x76800 : Shape := ⟨2, ![4, 76800]⟩
abbrev S4 : Shape := ⟨1, ![4]⟩
abbrev S4x1536 : Shape := ⟨2, ![4, 1536]⟩
abbrev S4x256x1 : Shape := ⟨3, ![4, 256, 1]⟩
abbrev S4x1x1536 : Shape := ⟨3, ![4, 1, 1536]⟩
abbrev S4x256x1536 : Shape := ⟨3, ![4, 256, 1536]⟩
abbrev S1 : Shape := ⟨1, ![1]⟩

abbrev nBuf : Space → Nat
  | .hbm => 21
  | .vmem => 7
  | .smem => 0
  | _ => 0

abbrev bufTy : (tb : Table) → Fin (tcTables nBuf tb) → BufTy
  | .hbm, ⟨0, _⟩ => ⟨S4x1x240x320, .f32⟩
  | .hbm, ⟨1, _⟩ => ⟨S4x256, .f32⟩
  | .hbm, ⟨2, _⟩ => ⟨S_, .f32⟩
  | .hbm, ⟨3, _⟩ => ⟨S4x1, .f32⟩
  | .hbm, ⟨4, _⟩ => ⟨S4x1x1x1, .f32⟩
  | .hbm, ⟨5, _⟩ => ⟨S4x1x240x320, .f32⟩
  | .hbm, ⟨6, _⟩ => ⟨S4x1x240x320, .f32⟩
  | .hbm, ⟨7, _⟩ => ⟨S4x76800, .f32⟩
  | .hbm, ⟨8, _⟩ => ⟨S4x1, .f32⟩
  | .hbm, ⟨9, _⟩ => ⟨S4x256, .f32⟩
  | .hbm, ⟨10, _⟩ => ⟨S4x256, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .local _ .vmem, ⟨0, _⟩ => ⟨S4x1536, .f32⟩
  | .local _ .vmem, ⟨1, _⟩ => ⟨S4x1536, .f32⟩
  | .local _ .vmem, ⟨2, _⟩ => ⟨S4x256, .f32⟩
  | .local _ .vmem, ⟨3, _⟩ => ⟨S4, .f32⟩
  | .local _ .vmem, ⟨4, _⟩ => ⟨S4, .f32⟩
  | .local _ .vmem, ⟨5, _⟩ => ⟨S4x256, .f32⟩
  | .local _ .vmem, ⟨6, _⟩ => ⟨S4x1, .f32⟩
  | _, _ => ⟨S4x1x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S4x1x240x320_S4x1_d2_3 : S4x1x240x320.ReducesTo [2, 3] S4x1
  h_S_ : 0 < S_.numel
  bcast_S4x1_S4x1x1x1_0_1 : S4x1.BroadcastsInDim S4x1x1x1 (![0, 1] : Fin 2 → Fin S4x1x1x1.rank)
  bcast_S4x1x1x1_S4x1x240x320_0_1_2_3 : S4x1x1x1.BroadcastsInDim S4x1x240x320 (![0, 1, 2, 3] : Fin 4 → Fin S4x1x240x320.rank)
  shapeCasts_S4x1x240x320_S4x76800 : S4x1x240x320.ShapeCasts S4x76800
  shapeCasts_S4x1x1x1_S4x1 : S4x1x1x1.ShapeCasts S4x1
  bcast_S4x1_S4x256_0_1 : S4x1.BroadcastsInDim S4x256 (![0, 1] : Fin 2 → Fin S4x256.rank)
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S4x1536_S4x1536_0_0 : ∀ a, (![0, 0] : Fin 2 → Nat) a + S4x1536.size a ≤ S4x1536.size a
  h_S4x1536 : 0 < S4x1536.numel
  shapeCasts_S4x1536_S4x1536 : S4x1536.ShapeCasts S4x1536
  shapeCasts_S4x256_S4x256x1 : S4x256.ShapeCasts S4x256x1
  shapeCasts_S4x1536_S4x1x1536 : S4x1536.ShapeCasts S4x1x1536
  broadcasts_S4x256x1_S4x256x1536 : S4x256x1.Broadcasts S4x256x1536
  broadcasts_S4x1x1536_S4x256x1536 : S4x1x1536.Broadcasts S4x256x1536
  reduces_S4x256x1536_S4x256 : S4x256x1536.Reduces [2] S4x256
  reduces_S4x256x1536_S4x1536 : S4x256x1536.Reduces [1] S4x1536
  reduces_S4x1536_S4 : S4x1536.Reduces [1] S4
  shapeCasts_S4_S4x1 : S4.ShapeCasts S4x1
  reduces_S4x256_S4 : S4x256.Reduces [1] S4
  shapeCasts_S4x1_S4 : S4x1.ShapeCasts S4
  inb_S4_S4_0 : ∀ a, (![0] : Fin 1 → Nat) a + S4.size a ≤ S4.size a
  h_S4 : 0 < S4.numel
  reducesTo_S4_S_d0 : S4.ReducesTo [0] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1536.size a ≤ S4x76800.size a
  hwx0_0 : ∀ i : grid0.Coords, EltTy.bits .f32 = 32 ∨ (Rect.block (s := S4x76800) S4x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4.size a ≤ S4.size a
  hwx0_3 : ∀ i : grid0.Coords, EltTy.bits .f32 = 32 ∨ (Rect.block (s := S4) S4.size (cc0_transform_3 i) (hinb0_3 i)).WholeWords (EltTy.packing .f32)

variable [Facts₀]

abbrev win0_0 : Pipeline.Window sig grid0 :=
  Pipeline.Window.ofSpec (Memref.whole main_v4) S4x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S4.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S4.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1x240x320 : Shape := ⟨4, ![4, 1, 240, 320]⟩
abbrev S4x256 : Shape := ⟨2, ![4, 256]⟩
abbrev S_ : Shape := ⟨0, ![]⟩
abbrev S4x1 : Shape := ⟨2, ![4, 1]⟩
abbrev S4x1x1x1 : Shape := ⟨4, ![4, 1, 1, 1]⟩
abbrev S4x76800 : Shape := ⟨2, ![4, 76800]⟩
abbrev S4x256x1 : Shape := ⟨3, ![4, 256, 1]⟩
abbrev S4x1x76800 : Shape := ⟨3, ![4, 1, 76800]⟩
abbrev S4x256x76800 : Shape := ⟨3, ![4, 256, 76800]⟩
abbrev S4 : Shape := ⟨1, ![4]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S4x1x240x320, .f32⟩
  | .hbm, ⟨1, _⟩ => ⟨S4x256, .f32⟩
  | .hbm, ⟨2, _⟩ => ⟨S_, .f32⟩
  | .hbm, ⟨3, _⟩ => ⟨S4x1, .f32⟩
  | .hbm, ⟨4, _⟩ => ⟨S4x1x1x1, .f32⟩
  | .hbm, ⟨5, _⟩ => ⟨S4x1x240x320, .f32⟩
  | .hbm, ⟨6, _⟩ => ⟨S4x1x240x320, .f32⟩
  | .hbm, ⟨7, _⟩ => ⟨S4x1, .f32⟩
  | .hbm, ⟨8, _⟩ => ⟨S4x256, .f32⟩
  | .hbm, ⟨9, _⟩ => ⟨S4x256, .f32⟩
  | .hbm, ⟨10, _⟩ => ⟨S4x76800, .f32⟩
  | .hbm, ⟨11, _⟩ => ⟨S4x256x1, .f32⟩
  | .hbm, ⟨12, _⟩ => ⟨S4x1x76800, .f32⟩
  | .hbm, ⟨13, _⟩ => ⟨S4x256x76800, .f32⟩
  | .hbm, ⟨14, _⟩ => ⟨S4x256x76800, .f32⟩
  | .hbm, ⟨15, _⟩ => ⟨S4x256x76800, .f32⟩
  | .hbm, ⟨16, _⟩ => ⟨S4x256x76800, .f32⟩
  | .hbm, ⟨17, _⟩ => ⟨S_, .f32⟩
  | .hbm, ⟨18, _⟩ => ⟨S4x256, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4x76800, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | _, _ => ⟨S4x1x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  reducesTo_S4x1x240x320_S4x1_d2_3 : S4x1x240x320.ReducesTo [2, 3] S4x1
  h_S_ : 0 < S_.numel
  bcast_S4x1_S4x1x1x1_0_1 : S4x1.BroadcastsInDim S4x1x1x1 (![0, 1] : Fin 2 → Fin S4x1x1x1.rank)
  bcast_S4x1x1x1_S4x1x240x320_0_1_2_3 : S4x1x1x1.BroadcastsInDim S4x1x240x320 (![0, 1, 2, 3] : Fin 4 → Fin S4x1x240x320.rank)
  shapeCasts_S4x1x1x1_S4x1 : S4x1x1x1.ShapeCasts S4x1
  bcast_S4x1_S4x256_0_1 : S4x1.BroadcastsInDim S4x256 (![0, 1] : Fin 2 → Fin S4x256.rank)
  shapeCasts_S4x1x240x320_S4x76800 : S4x1x240x320.ShapeCasts S4x76800
  bcast_S4x256_S4x256x1_0_1 : S4x256.BroadcastsInDim S4x256x1 (![0, 1] : Fin 2 → Fin S4x256x1.rank)
  bcast_S4x76800_S4x1x76800_0_2 : S4x76800.BroadcastsInDim S4x1x76800 (![0, 2] : Fin 2 → Fin S4x1x76800.rank)
  bcast_S4x256x1_S4x256x76800_0_1_2 : S4x256x1.BroadcastsInDim S4x256x76800 (![0, 1, 2] : Fin 3 → Fin S4x256x76800.rank)
  bcast_S4x1x76800_S4x256x76800_0_1_2 : S4x1x76800.BroadcastsInDim S4x256x76800 (![0, 1, 2] : Fin 3 → Fin S4x256x76800.rank)
  reducesTo_S4x256x76800_S4x256_d2 : S4x256x76800.ReducesTo [2] S4x256
  reducesTo_S4x256_S4_d1 : S4x256.ReducesTo [1] S4
  bcast_S_S4 : S_.BroadcastsInDim S4 (![] : Fin 0 → Fin S4.rank)
  reducesTo_S4x256x76800_S4x76800_d1 : S4x256x76800.ReducesTo [1] S4x76800
  reducesTo_S4x76800_S4_d1 : S4x76800.ReducesTo [1] S4
  reducesTo_S4_S_d0 : S4.ReducesTo [0] S_
  shapeCasts_S_S1 : S_.ShapeCasts S1

variable [Facts₀]

class Facts : Prop extends Facts₀ where

variable [Facts]
-- ==== Proof.StepPieces.lean ====
/-
  What each grid step leaves behind, as the step's arithmetic applied to what it loaded.

  The first step stores `+∞` into every running per-bin minimum and `0` into every running per-image sum, reads
  them back, and then does what every step does: it replaces the per-bin minima by their minimum with the tile's,
  and adds the tile's sum of per-pixel minima to the per-image sums. A middle step does the same over what the
  step before left. The last step does that too and then, reading the two accumulators back, writes the two
  means. Each statement below holds for any reading of the floats.
-/
import proofs.«180755_j42812234006906_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- After the first step the per-bin minima are the tile's minima against the freshly stored `+∞`. -/
theorem bins_first (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : cond0_0 i) (hc1 : ¬cond0_1 i)
    (x0 : Vec F S4x1536 .f32) (x1 : Vec F S4x256 .f32) :
    sout0_A_0 c i a1 h1 a2 h2 a3 h3 a4 h4 a5 h5 a6 h6 hc0 hc1 x0 x1 = k0_pay4 x0 x1 (k0_pay1 (F := F)) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S4x256) hz2, View.readCov_unit_zero (S := S4x256) _ hz2]
  simp only [View.readAt_eq_ld, h1.read_unread, h2.read_unread, h5.read_unread, h6.read_unread, View.ld_unit_zero (S := S4x1536) hz2, View.ld_unit_zero (S := S4x256) hz2, View.ld_unit_zero (S := S4x1) hz2]

/-- After the first step the per-image sums are the tile's sums added to the freshly stored `0`. -/
theorem sums_first (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : cond0_0 i) (hc1 : ¬cond0_1 i)
    (x0 : Vec F S4x1536 .f32) (x1 : Vec F S4x256 .f32) :
    sout0_A_1 c i a1 h1 a2 h2 a3 h3 a4 h4 a5 h5 a6 h6 hc0 hc1 x0 x1 = k0_pay5 x0 x1 (k0_pay2 (F := F)) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S4x1) hz2, View.readCov_unit_zero (S := S4x1) _ hz2]
  simp only [View.readAt_eq_ld, h1.read_unread, h2.read_unread, h5.read_unread, h6.read_unread, View.ld_unit_zero (S := S4x1536) hz2, View.ld_unit_zero (S := S4x256) hz2, View.ld_unit_zero (S := S4x1) hz2]

/-- A middle step folds the tile's minima into what the step before left. -/
theorem bins_middle (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : ¬cond0_0 i) (hc1 : ¬cond0_1 i)
    (x0 : Vec F S4x1536 .f32) (x1 : Vec F S4x256 .f32) (xs0 : Vec F S4x256 .f32) (xs1 : Vec F S4x1 .f32) :
    sout0_B_0 c i a1 h1 a2 h2 a3 h3 a4 h4 a5 h5 a6 h6 hc0 hc1 x0 x1 xs0 xs1 = k0_pay4 x0 x1 xs0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz2]
  simp only [View.readAt_eq_ld, h1.read_unread, h2.read_unread, h5.read_unread, h6.read_unread, View.ld_unit_zero (S := S4x1536) hz2, View.ld_unit_zero (S := S4x256) hz2, View.ld_unit_zero (S := S4x1) hz2]

/-- A middle step adds the tile's sum to what the step before left. -/
theorem sums_middle (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : ¬cond0_0 i) (hc1 : ¬cond0_1 i)
    (x0 : Vec F S4x1536 .f32) (x1 : Vec F S4x256 .f32) (xs0 : Vec F S4x256 .f32) (xs1 : Vec F S4x1 .f32) :
    sout0_B_1 c i a1 h1 a2 h2 a3 h3 a4 h4 a5 h5 a6 h6 hc0 hc1 x0 x1 xs0 xs1 = k0_pay5 x0 x1 xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz2]
  simp only [View.readAt_eq_ld, h1.read_unread, h2.read_unread, h5.read_unread, h6.read_unread, View.ld_unit_zero (S := S4x1536) hz2, View.ld_unit_zero (S := S4x256) hz2, View.ld_unit_zero (S := S4x1) hz2]

/-- The last step folds its tile in like every other. -/
theorem bins_last (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : ¬cond0_0 i) (hc1 : cond0_1 i)
    (x0 : Vec F S4x1536 .f32) (x1 : Vec F S4x256 .f32) (xs0 : Vec F S4x256 .f32) (xs1 : Vec F S4x1 .f32) :
    sout0_C_0 c i a1 h1 a2 h2 a3 h3 a4 h4 a5 h5 a6 h6 hc0 hc1 x0 x1 xs0 xs1 = k0_pay4 x0 x1 xs0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz2]
  simp only [View.readAt_eq_ld, h1.read_unread, h2.read_unread, h5.read_unread, h6.read_unread, View.ld_unit_zero (S := S4x1536) hz2, View.ld_unit_zero (S := S4x256) hz2, View.ld_unit_zero (S := S4x1) hz2]

/-- The last step adds its tile's sum like every other. -/
theorem sums_last (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : ¬cond0_0 i) (hc1 : cond0_1 i)
    (x0 : Vec F S4x1536 .f32) (x1 : Vec F S4x256 .f32) (xs0 : Vec F S4x256 .f32) (xs1 : Vec F S4x1 .f32) :
    sout0_C_1 c i a1 h1 a2 h2 a3 h3 a4 h4 a5 h5 a6 h6 hc0 hc1 x0 x1 xs0 xs1 = k0_pay5 x0 x1 xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz2]
  simp only [View.readAt_eq_ld, h1.read_unread, h2.read_unread, h5.read_unread, h6.read_unread, View.ld_unit_zero (S := S4x1536) hz2, View.ld_unit_zero (S := S4x256) hz2, View.ld_unit_zero (S := S4x1) hz2]

/-- The last step's first result: the mean of the finished per-bin minima. -/
theorem binMean_last (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : ¬cond0_0 i) (hc1 : cond0_1 i)
    (x0 : Vec F S4x1536 .f32) (x1 : Vec F S4x256 .f32) (xs0 : Vec F S4x256 .f32) (xs1 : Vec F S4x1 .f32) :
    out0_C_2 c i a1 h1 a2 h2 a3 h3 a4 h4 a5 h5 a6 h6 hc0 hc1 x0 x1 xs0 xs1 = k0_pay6 (k0_pay4 x0 x1 xs0) := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz1]
  simp only [View.readCov_unit_zero (S := S4x256) _ hz2, View.readAt_eq_ld, h1.read_unread, h2.read_unread, h5.read_unread, h6.read_unread, View.ld_unit_zero (S := S4x1536) hz2, View.ld_unit_zero (S := S4x256) hz2, View.ld_unit_zero (S := S4x1) hz2]

/-- The last step's second result: the mean of the finished per-image sums. -/
theorem pixMean_last (c : Dev nD) (i : grid0.Coords) (a1 : Memref sig .tc .vmem S4x1536 .f32) (h1 : a1.IsWhole) (a2 : Memref sig .tc .vmem S4x256 .f32) (h2 : a2.IsWhole) (a3 : Memref sig .tc .vmem S4 .f32) (h3 : a3.IsWhole) (a4 : Memref sig .tc .vmem S4 .f32) (h4 : a4.IsWhole) (a5 : Memref sig .tc .vmem S4x256 .f32) (h5 : a5.IsWhole) (a6 : Memref sig .tc .vmem S4x1 .f32) (h6 : a6.IsWhole) (hc0 : ¬cond0_0 i) (hc1 : cond0_1 i)
    (x0 : Vec F S4x1536 .f32) (x1 : Vec F S4x256 .f32) (xs0 : Vec F S4x256 .f32) (xs1 : Vec F S4x1 .f32) :
    out0_C_3 c i a1 h1 a2 h2 a3 h3 a4 h4 a5 h5 a6 h6 hc0 hc1 x0 x1 xs0 xs1 = k0_pay7 (k0_pay5 x0 x1 xs1) := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz1]
  simp only [View.readCov_unit_zero (S := S4x1) _ hz2, View.readAt_eq_ld, h1.read_unread, h2.read_unread, h5.read_unread, h6.read_unread, View.ld_unit_zero (S := S4x1536) hz2, View.ld_unit_zero (S := S4x256) hz2, View.ld_unit_zero (S := S4x1) hz2]

end Cert.KernelIdeal.Step

end
-- ==== Proof.Accumulators.lean ====
/-
  The two accumulators after every grid step, as a recursion on the step.

  After step 0 the per-bin minima are the first tile's against `+∞` and the per-image sums the first tile's added
  to `0`; after step `n + 1` they are step `n + 1`'s tile folded into what step `n` left. The last step's two
  results are the two means of what the accumulators hold once its own tile is folded in. Every statement holds
  for any reading of the floats; the induction is on the step, never on the grid's size.
-/
import proofs.«180755_j42812234006906_1_alg».proof.Proof.StepPieces

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The tile of pixels step `t` sees, and the bin array it sees (the same at every step). -/
abbrev tile (c : Dev nD) (t : Fin cfg0.N) : Vec F S4x1536 .f32 := iblk m c 0 t
abbrev bins (c : Dev nD) (t : Fin cfg0.N) : Vec F S4x256 .f32 := iblk m c 1 t

/-- The running per-bin minima after step `n`. -/
def binAcc (c : Dev nD) : (n : ℕ) → n < cfg0.N → Vec F S4x256 .f32
  | 0, h => k0_pay4 (tile m c ⟨0, h⟩) (bins m c ⟨0, h⟩) (k0_pay1 (F := F))
  | n + 1, h => k0_pay4 (tile m c ⟨n + 1, h⟩) (bins m c ⟨n + 1, h⟩) (binAcc c n (Nat.lt_of_succ_lt h))

/-- The running per-image sums after step `n`. -/
def sumAcc (c : Dev nD) : (n : ℕ) → n < cfg0.N → Vec F S4x1 .f32
  | 0, h => k0_pay5 (tile m c ⟨0, h⟩) (bins m c ⟨0, h⟩) (k0_pay2 (F := F))
  | n + 1, h => k0_pay5 (tile m c ⟨n + 1, h⟩) (bins m c ⟨n + 1, h⟩) (sumAcc c n (Nat.lt_of_succ_lt h))

/-- A step that is not the first folds its tile into the per-bin minima the step before left. -/
theorem bins_succ (c : Dev nD) (t : Fin cfg0.N) (h0 : ¬t.val % 50 = 0) :
    (outsAt0 m c t.val t.isLt).2.2.1 = k0_pay4 (tile m c t) (bins m c t) (outsAt0 m c (t.val - 1) (Nat.lt_of_le_of_lt (Nat.sub_le _ _) t.isLt)).2.2.1 := by
  by_cases h1 : t.val % 50 = 49
  · rw [outsAt0_C m c t h0 h1]
    dsimp only
    exact Step.bins_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Step.bins_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- And adds its tile's sum to the per-image sums the step before left. -/
theorem sums_succ (c : Dev nD) (t : Fin cfg0.N) (h0 : ¬t.val % 50 = 0) :
    (outsAt0 m c t.val t.isLt).2.2.2 = k0_pay5 (tile m c t) (bins m c t) (outsAt0 m c (t.val - 1) (Nat.lt_of_le_of_lt (Nat.sub_le _ _) t.isLt)).2.2.2 := by
  by_cases h1 : t.val % 50 = 49
  · rw [outsAt0_C m c t h0 h1]
    dsimp only
    exact Step.sums_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Step.sums_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first step starts both accumulators. -/
theorem first (c : Dev nD) (t : Fin cfg0.N) (h0 : t.val % 50 = 0) :
    (outsAt0 m c t.val t.isLt).2.2.1 = k0_pay4 (tile m c t) (bins m c t) (k0_pay1 (F := F))
    ∧ (outsAt0 m c t.val t.isLt).2.2.2 = k0_pay5 (tile m c t) (bins m c t) (k0_pay2 (F := F)) := by
  have hN : cfg0.N = 50 := N_0
  have h1 : ¬t.val % 50 = 49 := by have := t.isLt; omega
  rw [outsAt0_A m c t h0 h1]
  dsimp only
  exact ⟨Step.bins_first c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t),
    Step.sums_first c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t)⟩

/-- So the generated per-step contents of the two scratch buffers ARE the two recursions. -/
theorem acc_eq (c : Dev nD) : ∀ (n : ℕ) (h : n < cfg0.N),
    (outsAt0 m c n h).2.2.1 = binAcc m c n h ∧ (outsAt0 m c n h).2.2.2 = sumAcc m c n h
  | 0, h => first m c ⟨0, h⟩ rfl
  | n + 1, h => by
    have hN : cfg0.N = 50 := N_0
    obtain ⟨ihb, ihs⟩ := acc_eq c n (Nat.lt_of_succ_lt h)
    have h0 : ¬(⟨n + 1, h⟩ : Fin cfg0.N).val % 50 = 0 := by dsimp only; omega
    constructor
    · refine (bins_succ m c ⟨n + 1, h⟩ h0).trans ?_
      show k0_pay4 _ _ (outsAt0 m c n _).2.2.1 = k0_pay4 _ _ (binAcc m c n _)
      rw [ihb]
    · refine (sums_succ m c ⟨n + 1, h⟩ h0).trans ?_
      show k0_pay5 _ _ (outsAt0 m c n _).2.2.2 = k0_pay5 _ _ (sumAcc m c n _)
      rw [ihs]

/-- The last step writes the two means of the finished accumulators. -/
theorem last (c : Dev nD) (t : Fin cfg0.N) (h1 : t.val % 50 = 49) :
    (outsAt0 m c t.val t.isLt).1 = k0_pay6 (binAcc m c t.val t.isLt)
    ∧ (outsAt0 m c t.val t.isLt).2.1 = k0_pay7 (sumAcc m c t.val t.isLt) := by
  have h0 : ¬t.val % 50 = 0 := by omega
  obtain ⟨eb, es⟩ := acc_eq m c t.val t.isLt
  rw [← eb, ← es, bins_succ m c t h0, sums_succ m c t h0, outsAt0_C m c t h0 h1]
  dsimp only
  exact ⟨Step.binMean_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    Step.pixMean_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Acc

end
-- ==== Proof.ChamferSpec.lean ====
/-
  The mathematics both programs compute, stated once over the two normalised arrays: the pixel array
  `T` (4 images × 76800 pixels) and the bin-centre array `B` (4 images × 256 bins).

  For image `b`, bin `k` and pixel `n` the squared difference is `sq b k n = (B b k − T b n)²`. The
  bin-to-pixel distance of image `b` is the mean over the bins of `min_n sq b k n`; the pixel-to-bin
  distance is the mean over the pixels of `min_k sq b k n`. Both minima start from `+∞`, both sums from `0`.

  A running minimum taken tile by tile is characterised here by its lower bounds (an extended real is below the
  minimum of a family exactly when it is below every member), and a running sum by the finite sum over an
  initial segment of the naturals; both are carried over any tile width and closed at the full length, which
  uses nothing but the order of the extended reals and the commutative monoid structure of their addition: no
  finiteness of the inputs is needed.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-! ## Lower bounds of a running minimum -/

/-- `x` is the greatest lower bound of the first `n` members of `g`, said through its lower bounds. -/
def IsMinOfFirst (g : ℕ → EReal) (n : ℕ) (x : EReal) : Prop := ∀ c : EReal, c ≤ x ↔ ∀ k < n, c ≤ g k

/-- Of no members the minimum is `+∞`. -/
theorem isMinOfFirst_zero (g : ℕ → EReal) : IsMinOfFirst g 0 ⊤ :=
  fun _ => ⟨fun _ k hk => absurd hk (Nat.not_lt_zero k), fun _ => le_top⟩

/-- One tile more: the minimum of the old value and the tile's own minimum (taken from `+∞`). -/
theorem isMinOfFirst_tile (g : ℕ → EReal) (n w : ℕ) (x : EReal) (h : IsMinOfFirst g n x) :
    IsMinOfFirst g (n + w) (min x ((Finset.univ : Finset (Fin w)).fold min ⊤ fun j => g (n + j.val))) := by
  intro c
  rw [le_min_iff, h c, Finset.le_fold_min]
  constructor
  · rintro ⟨h1, -, h2⟩ k hk
    by_cases hkn : k < n
    · exact h1 k hkn
    · have h3 := h2 ⟨k - n, by omega⟩ (Finset.mem_univ _)
      rwa [show n + (⟨k - n, by omega⟩ : Fin w).val = k from by show n + (k - n) = k; omega] at h3
  · intro hall
    exact ⟨fun k hk => hall k (by omega), le_top, fun j _ => hall _ (by have := j.isLt; omega)⟩

/-- At full length the running minimum is the minimum over the whole index type. -/
theorem isMinOfFirst_total (g : ℕ → EReal) (N : ℕ) (x : EReal) (h : IsMinOfFirst g N x) :
    x = (Finset.univ : Finset (Fin N)).fold min ⊤ fun i => g i.val := by
  refine eq_of_forall_le_iff fun c => ?_
  rw [h c, Finset.le_fold_min]
  exact ⟨fun hall => ⟨le_top, fun i _ => hall i.val i.isLt⟩, fun h2 k hk => h2.2 ⟨k, hk⟩ (Finset.mem_univ _)⟩

/-! ## A running sum, tile by tile -/

/-- One tile more of a sum over an initial segment. -/
theorem sum_first_tile (g : ℕ → EReal) (n w : ℕ) :
    (∑ k ∈ Finset.range n, g k) + ∑ j : Fin w, g (n + j.val) = ∑ k ∈ Finset.range (n + w), g k := by
  rw [Finset.sum_range_add]
  exact congrArg (_ + ·) (Finset.sum_range fun x => g (n + x)).symm

/-- At full length it is the sum over the whole index type. -/
theorem sum_first_total (g : ℕ → EReal) (N : ℕ) : ∑ k ∈ Finset.range N, g k = ∑ i : Fin N, g i.val :=
  Finset.sum_range g

/-! ## The two distances -/

/-- The pixel array's shape and the bin array's. -/
abbrev SPix : Shape := ⟨2, ![4, 76800]⟩
abbrev SBin : Shape := ⟨2, ![4, 256]⟩
abbrev SImg : Shape := ⟨1, ![4]⟩

/-- The f32 pattern of `+∞` denotes the top of the extended reals. -/
theorem ofBits_inf : Ideal.ofBits .f32 0x7F800000#32 = (⊤ : EReal) := by
  simp [Ideal.ofBits, Ideal.ieee]

variable (T : SPix.Idx → EReal) (B : SBin.Idx → EReal)

/-- The squared difference of bin `k` and pixel `n` of image `b`. -/
def sq (b : Fin 4) (k : Fin 256) (n : Fin 76800) : EReal :=
  (B (ix2 b k) - T (ix2 b n)) * (B (ix2 b k) - T (ix2 b n))

/-- The nearest pixel's squared distance from bin `k`. -/
def binMin (b : Fin 4) (k : Fin 256) : EReal := (Finset.univ : Finset (Fin 76800)).fold min ⊤ fun n => sq T B b k n

/-- The nearest bin's squared distance from pixel `n`. -/
def pixMin (b : Fin 4) (n : Fin 76800) : EReal := (Finset.univ : Finset (Fin 256)).fold min ⊤ fun k => sq T B b k n

/-- Bins to pixels: the mean over the 256 bins. -/
def binsToPixels : SImg.Idx → EReal := fun i => Ideal.div (∑ k : Fin 256, binMin T B (i 0) k) (Ideal.ofBits .f32 0x43800000#32)

/-- Pixels to bins: the mean over the 76800 pixels. -/
def pixelsToBins : SImg.Idx → EReal := fun i => Ideal.div (∑ n : Fin 76800, pixMin T B (i 0) n) (Ideal.ofBits .f32 0x47960000#32)

/-- The squared differences of image `b` and bin `k` along the naturals (`+∞` past the last pixel). -/
def sqAlong (b : Fin 4) (k : Fin 256) (n : ℕ) : EReal := if h : n < 76800 then sq T B b k ⟨n, h⟩ else ⊤

/-- The per-pixel minima of image `b` along the naturals (`0` past the last pixel). -/
def pixMinAlong (b : Fin 4) (n : ℕ) : EReal := if h : n < 76800 then pixMin T B b ⟨n, h⟩ else 0

theorem binMin_eq_of_isMinOfFirst (b : Fin 4) (k : Fin 256) (x : EReal) (h : IsMinOfFirst (sqAlong T B b k) 76800 x) :
    x = binMin T B b k := by
  rw [isMinOfFirst_total _ _ _ h]
  unfold binMin
  refine congrArg (fun f => (Finset.univ : Finset (Fin 76800)).fold min ⊤ f) (funext fun i => ?_)
  show sqAlong T B b k i.val = sq T B b k i
  unfold sqAlong
  rw [dif_pos i.isLt]

theorem sum_pixMin_eq (b : Fin 4) : ∑ n ∈ Finset.range 76800, pixMinAlong T B b n = ∑ n : Fin 76800, pixMin T B b n := by
  rw [sum_first_total]
  refine Finset.sum_congr rfl fun i _ => ?_
  show pixMinAlong T B b i.val = pixMin T B b i
  unfold pixMinAlong
  rw [dif_pos i.isLt]

end Cert.Chamfer

end
-- ==== Proof.TilePayloads.lean ====
/-
  What one grid step of the kernel computes, read entry by entry over the extended reals.

  A step sees a tile `x0` of 1536 pixels of every image and the whole bin array `x1`. Its squared-difference
  tensor at (image `b`, bin `k`, pixel `j` of the tile) is `(x1 b k − x0 b j)²`. From it the step forms
    * per bin, the minimum over the tile's pixels, folded into the running per-bin minimum;
    * per pixel, the minimum over all bins, whose sum over the tile is added to the running per-image sum;
  and the last step divides the row sums of the per-bin minima by 256 and the per-image sums by 76800.
-/
import proofs.«180755_j42812234006906_1_alg».proof.Proof.Gen.KernelIdeal.Skeleton
import proofs.«180755_j42812234006906_1_alg».proof.Proof.ChamferSpec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.KernelIdeal.Tile

open Cert.KernelIdeal Cert.KernelIdeal.Gen Idealize.ShloMosaic Idealize.ShloMosaic.ValueIdx

/-- A minimum-reduction over one axis, at the extended reals: the fold of `min` from the accumulator's value over
    that axis's coordinates. -/
theorem minReduction_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The bins as a column: entry (b, k, 0) of the [4,256,1] view is entry (b, k). -/
theorem binColumn_apply (x1 : S4x256.Idx → EReal) (h : S4x256.ShapeCasts S4x256x1) (b : Fin 4) (k : Fin 256) (z : Fin 1) :
    shapeCast S4x256x1 x1 h (ix3 b k z) = x1 (ix2 b k) :=
  shapeCast_apply x1 h (ix3 b k z) (ix2 b k) (by
    rewrite [Shape.rowMajor_val_two, Shape.rowMajor_val_three]
    have := z.isLt
    show b.val * 256 + k.val = (b.val * 256 + k.val) * 1 + z.val
    omega)

/-- The tile's pixels as a row: entry (b, 0, j) of the [4,1,1536] view is entry (b, j). -/
theorem pixelRow_apply (x0 : S4x1536.Idx → EReal) (h : S4x1536.ShapeCasts S4x1x1536) (b : Fin 4) (z : Fin 1) (j : Fin 1536) :
    shapeCast S4x1x1536 x0 h (ix3 b z j) = x0 (ix2 b j) :=
  shapeCast_apply x0 h (ix3 b z j) (ix2 b j) (by
    rewrite [Shape.rowMajor_val_two, Shape.rowMajor_val_three]
    have := z.isLt
    show b.val * 1536 + j.val = (b.val * 1 + z.val) * 1536 + j.val
    omega)

/-- The squared difference of bin `k` and the tile's pixel `j`, image `b`. -/
theorem sqTile_apply (x0 : S4x1536.Idx → EReal) (x1 : S4x256.Idx → EReal) (b : Fin 4) (k : Fin 256) (j : Fin 1536) :
    k0_pay3 (F := Ideal) x0 x1 (ix3 b k j) = (x1 (ix2 b k) - x0 (ix2 b j)) * (x1 (ix2 b k) - x0 (ix2 b j)) := by
  have hb : broadcastTo S4x256x1536 (shapeCast S4x256x1 x1 Facts₀.shapeCasts_S4x256_S4x256x1) Facts₀.broadcasts_S4x256x1_S4x256x1536 (ix3 b k j)
      = x1 (ix2 b k) :=
    (broadcastTo_apply _ _ (ix3 b k j) (ix3 b k (0 : Fin 1)) (fun a => match a with
      | ⟨0, _⟩ => by show b.val = if (4 : Nat) = 1 then 0 else b.val; rw [if_neg (by decide)]
      | ⟨1, _⟩ => by show k.val = if (256 : Nat) = 1 then 0 else k.val; rw [if_neg (by decide)]
      | ⟨2, _⟩ => by show 0 = if (1 : Nat) = 1 then 0 else j.val; rw [if_pos rfl])).trans (binColumn_apply x1 _ b k 0)
  have ht : broadcastTo S4x256x1536 (shapeCast S4x1x1536 x0 Facts₀.shapeCasts_S4x1536_S4x1x1536) Facts₀.broadcasts_S4x1x1536_S4x256x1536 (ix3 b k j)
      = x0 (ix2 b j) :=
    (broadcastTo_apply _ _ (ix3 b k j) (ix3 b (0 : Fin 1) j) (fun a => match a with
      | ⟨0, _⟩ => by show b.val = if (4 : Nat) = 1 then 0 else b.val; rw [if_neg (by decide)]
      | ⟨1, _⟩ => by show 0 = if (1 : Nat) = 1 then 0 else k.val; rw [if_pos rfl]
      | ⟨2, _⟩ => by show j.val = if (1536 : Nat) = 1 then 0 else j.val; rw [if_neg (by decide)])).trans (pixelRow_apply x0 _ b 0 j)
  unfold k0_pay3
  simp only [shapeCast_self]
  rw [mulf_apply, subf_apply, hb, ht]

/-- The running per-bin minimum after a step: the old value against the tile's own minimum. -/
theorem binStep_apply (x0 : S4x1536.Idx → EReal) (x1 prev : S4x256.Idx → EReal) (b : Fin 4) (k : Fin 256) :
    k0_pay4 (F := Ideal) x0 x1 prev (ix2 b k)
      = min (prev (ix2 b k)) ((Finset.univ : Finset (Fin 1536)).fold min ⊤
          fun j => (x1 (ix2 b k) - x0 (ix2 b j)) * (x1 (ix2 b k) - x0 (ix2 b j))) := by
  unfold k0_pay4
  simp only [shapeCast_self]
  rw [minimumf_apply]
  refine congrArg (min (prev (ix2 b k))) ?_
  refine (minReduction_single (k0_pay3 (F := Ideal) x0 x1) _ Facts₀.reduces_S4x256x1536_S4x256 _ _ (ix2 b k)).trans ?_
  rw [show FloatOps.ofBits (F := Ideal) .f32 0x7F800000#32 = (⊤ : EReal) from Cert.Chamfer.ofBits_inf]
  refine congrArg (fun f => (Finset.univ : Finset (Fin 1536)).fold min ⊤ f) (funext fun j => ?_)
  show k0_pay3 (F := Ideal) x0 x1 (Facts₀.reduces_S4x256x1536_S4x256.lift (ix2 b k) j) = _
  rw [show Facts₀.reduces_S4x256x1536_S4x256.lift (ix2 b k) j = ix3 b k j from
    funext fun a => Fin.ext (by match a with | ⟨0, _⟩ => rfl | ⟨1, _⟩ => rfl | ⟨2, _⟩ => rfl)]
  exact sqTile_apply x0 x1 b k j

/-- The running per-image sum after a step: the old value plus the tile's sum of per-pixel minima. -/
theorem pixStep_apply (x0 : S4x1536.Idx → EReal) (x1 : S4x256.Idx → EReal) (prev : S4x1.Idx → EReal) (b : Fin 4) (z : Fin 1) :
    k0_pay5 (F := Ideal) x0 x1 prev (ix2 b z)
      = prev (ix2 b z) + ∑ j : Fin 1536, (Finset.univ : Finset (Fin 256)).fold min ⊤
          fun k => (x1 (ix2 b k) - x0 (ix2 b j)) * (x1 (ix2 b k) - x0 (ix2 b j)) := by
  unfold k0_pay5
  simp only [shapeCast_self]
  rw [addf_apply]
  refine congrArg (prev (ix2 b z) + ·) ?_
  rw [shapeCast_apply _ Facts₀.shapeCasts_S4_S4x1 (ix2 b z) (ix1 b) (by
    rewrite [Shape.rowMajor_val_one, Shape.rowMajor_val_two]
    have := z.isLt
    show b.val = b.val * 1 + z.val
    omega)]
  refine (Ideal.multiReduction_add_single _ _ Facts₀.reduces_S4x1536_S4 _ _ (ix1 b)).trans ?_
  refine Finset.sum_congr rfl fun j _ => ?_
  rw [show Facts₀.reduces_S4x1536_S4.lift (ix1 b) j = ix2 b j from
    funext fun a => Fin.ext (by match a with | ⟨0, _⟩ => rfl | ⟨1, _⟩ => rfl)]
  refine (minReduction_single (k0_pay3 (F := Ideal) x0 x1) _ Facts₀.reduces_S4x256x1536_S4x1536 _ _ (ix2 b j)).trans ?_
  rw [show FloatOps.ofBits (F := Ideal) .f32 0x7F800000#32 = (⊤ : EReal) from Cert.Chamfer.ofBits_inf]
  refine congrArg (fun f => (Finset.univ : Finset (Fin 256)).fold min ⊤ f) (funext fun k => ?_)
  show k0_pay3 (F := Ideal) x0 x1 (Facts₀.reduces_S4x256x1536_S4x1536.lift (ix2 b j) k) = _
  rw [show Facts₀.reduces_S4x256x1536_S4x1536.lift (ix2 b j) k = ix3 b k j from
    funext fun a => Fin.ext (by match a with | ⟨0, _⟩ => rfl | ⟨1, _⟩ => rfl | ⟨2, _⟩ => rfl)]
  exact sqTile_apply x0 x1 b k j

/-- The last step's first result: the row sum of the per-bin minima over 256. -/
theorem binMean_apply (v : S4x256.Idx → EReal) (b : Fin 4) :
    k0_pay6 (F := Ideal) v (ix1 b) = Ideal.div (∑ k : Fin 256, v (ix2 b k)) (Ideal.ofBits .f32 0x43800000#32) := by
  unfold k0_pay6
  rw [divf_apply]
  refine congrArg₂ Ideal.div ((Ideal.multiReduction_add_single v _ Facts₀.reduces_S4x256_S4 _ _ (ix1 b)).trans
    (Finset.sum_congr rfl fun k _ => ?_)) rfl
  exact congrArg v (funext fun a => Fin.ext (by match a with | ⟨0, _⟩ => rfl | ⟨1, _⟩ => rfl))

/-- The last step's second result: the per-image sum over 76800. -/
theorem pixMean_apply (v : S4x1.Idx → EReal) (b : Fin 4) :
    k0_pay7 (F := Ideal) v (ix1 b) = Ideal.div (v (ix2 b (0 : Fin 1))) (Ideal.ofBits .f32 0x47960000#32) := by
  unfold k0_pay7
  rw [divf_apply]
  refine congrArg₂ Ideal.div ?_ rfl
  exact shapeCast_apply v Facts₀.shapeCasts_S4x1_S4 (ix1 b) (ix2 b (0 : Fin 1)) (by
    rewrite [Shape.rowMajor_val_one, Shape.rowMajor_val_two]
    show b.val * 1 + 0 = b.val
    omega)

/-- The reset values: `+∞` in every per-bin minimum, `0` in every per-image sum. -/
theorem binReset_apply (i : S4x256.Idx) : k0_pay1 (F := Ideal) i = ⊤ := by
  unfold k0_pay1
  simp only [shapeCast_self]
  exact Cert.Chamfer.ofBits_inf

theorem pixReset_apply (i : S4x1.Idx) : k0_pay2 (F := Ideal) i = 0 := by
  unfold k0_pay2
  simp only [shapeCast_self]
  exact Ideal.ofBits_zero_f32

end Cert.KernelIdeal.Tile

end
-- ==== Proof.AccumulatorValue.lean ====
/-
  The accumulators over the extended reals: after step `n` the running per-bin minima are the minima over the
  first `1536·(n+1)` pixels and the running per-image sums the sums of the per-pixel minima over those pixels,
  so after the fiftieth step they are the minima and the sums over all 76800 pixels, and the last step's two
  results are the two mean distances of `ChamferSpec` of the pixel array and the bin array as the kernel finds them.

  Step `t`'s tile is columns `1536·t … 1536·t + 1535` of the pixel array, and every step sees the whole bin array.
-/
import proofs.«180755_j42812234006906_1_alg».proof.Proof.Accumulators
import proofs.«180755_j42812234006906_1_alg».proof.Proof.TilePayloads

noncomputable section

open scoped BigOperators
open Idealize.ShloMosaic Idealize.ShloMosaic.TcCoe Idealize.SL.Sem

namespace Cert.KernelIdeal.AccValue

open Cert.KernelIdeal Cert.KernelIdeal.Gen Idealize.ShloMosaic.ValueIdx Cert.Chamfer

variable (m : (ℓ : Loc nD τ sig) → Buf (Elt Ideal) ℓ)

/-- The normalised pixel array and the normalised bin array as the kernel's call finds them. -/
abbrev pixArr (c : Dev nD) : SPix.Idx → EReal := V m c main_v4
abbrev binArr (c : Dev nD) : SBin.Idx → EReal := V m c main_v7

/-- The tile's block index: row block 0, column block `t`; the bin array's block is the whole array. -/
theorem tile_index : ∀ t : Fin cfg0.N, win0_0.index t 0 = 0 ∧ win0_0.index t 1 = t.val :=
  (by decide +kernel : ∀ t : Fin grid0.N, win0_0.index t 0 = 0 ∧ win0_0.index t 1 = t.val)
theorem bins_index : ∀ t : Fin cfg0.N, win0_1.index t 0 = 0 ∧ win0_1.index t 1 = 0 :=
  (by decide +kernel : ∀ t : Fin grid0.N, win0_1.index t 0 = 0 ∧ win0_1.index t 1 = 0)

theorem tile_col_lt (t : Fin cfg0.N) (j : Fin 1536) : 1536 * t.val + j.val < 76800 := by
  have hN : cfg0.N = 50 := N_0
  have := t.isLt
  have := j.isLt
  omega

/-- Entry (b, j) of step `t`'s tile is pixel `1536·t + j` of image `b`. -/
theorem tile_apply (c : Dev nD) (t : Fin cfg0.N) (b : Fin 4) (j : Fin 1536) :
    Acc.tile m c t (ix2 b j) = pixArr m c (ix2 b ⟨1536 * t.val + j.val, tile_col_lt t j⟩) := by
  show iblk m c 0 t (ix2 b j) = _
  unfold iblk
  rw [View.read_apply]
  show V m c main_v4 _ = V m c main_v4 _
  congr 1
  funext a
  apply Fin.ext
  match a with
  | ⟨0, _⟩ => show win0_0.index t 0 * 4 + 1 * b.val = b.val; rw [(tile_index t).1]; omega
  | ⟨1, _⟩ => show win0_0.index t 1 * 1536 + 1 * j.val = 1536 * t.val + j.val; rw [(tile_index t).2]; omega

/-- Entry (b, k) of the bins a step sees is entry (b, k) of the bin array. -/
theorem bins_apply (c : Dev nD) (t : Fin cfg0.N) (b : Fin 4) (k : Fin 256) :
    Acc.bins m c t (ix2 b k) = binArr m c (ix2 b k) := by
  show iblk m c 1 t (ix2 b k) = _
  unfold iblk
  rw [View.read_apply]
  show V m c main_v7 _ = V m c main_v7 _
  congr 1
  funext a
  apply Fin.ext
  match a with
  | ⟨0, _⟩ => show win0_1.index t 0 * 4 + 1 * b.val = b.val; rw [(bins_index t).1]; omega
  | ⟨1, _⟩ => show win0_1.index t 1 * 256 + 1 * k.val = k.val; rw [(bins_index t).2]; omega

/-- A step's squared difference at (b, k, j) is the array's at pixel `1536·t + j`. -/
theorem tile_sq (c : Dev nD) (t : Fin cfg0.N) (b : Fin 4) (k : Fin 256) (j : Fin 1536) :
    (Acc.bins m c t (ix2 b k) - Acc.tile m c t (ix2 b j)) * (Acc.bins m c t (ix2 b k) - Acc.tile m c t (ix2 b j))
      = sq (pixArr m c) (binArr m c) b k ⟨1536 * t.val + j.val, tile_col_lt t j⟩ := by
  rw [tile_apply, bins_apply]
  rfl

/-- One step of the per-bin minima: from the minimum over the first `1536·t` pixels to that over `1536·t + 1536`. -/
theorem bins_step (c : Dev nD) (t : Fin cfg0.N) (prev : S4x256.Idx → EReal) (b : Fin 4) (k : Fin 256)
    (h : IsMinOfFirst (sqAlong (pixArr m c) (binArr m c) b k) (1536 * t.val) (prev (ix2 b k))) :
    IsMinOfFirst (sqAlong (pixArr m c) (binArr m c) b k) (1536 * t.val + 1536)
      (k0_pay4 (F := Ideal) (Acc.tile m c t) (Acc.bins m c t) prev (ix2 b k)) := by
  have hstep := Tile.binStep_apply (Acc.tile m c t) (Acc.bins m c t) prev b k
  rw [hstep]
  have e : (fun j : Fin 1536 => (Acc.bins m c t (ix2 b k) - Acc.tile m c t (ix2 b j)) * (Acc.bins m c t (ix2 b k) - Acc.tile m c t (ix2 b j)))
      = fun j : Fin 1536 => sqAlong (pixArr m c) (binArr m c) b k (1536 * t.val + j.val) := funext fun j => by
    rw [tile_sq]
    unfold sqAlong
    rw [dif_pos (tile_col_lt t j)]
  rw [e]
  exact isMinOfFirst_tile _ _ 1536 _ h

/-- One step of the per-image sums. -/
theorem sums_step (c : Dev nD) (t : Fin cfg0.N) (prev : S4x1.Idx → EReal) (b : Fin 4) (z : Fin 1)
    (h : prev (ix2 b z) = ∑ n ∈ Finset.range (1536 * t.val), pixMinAlong (pixArr m c) (binArr m c) b n) :
    k0_pay5 (F := Ideal) (Acc.tile m c t) (Acc.bins m c t) prev (ix2 b z)
      = ∑ n ∈ Finset.range (1536 * t.val + 1536), pixMinAlong (pixArr m c) (binArr m c) b n := by
  have hstep := Tile.pixStep_apply (Acc.tile m c t) (Acc.bins m c t) prev b z
  rw [hstep, h, ← sum_first_tile]
  refine congrArg (_ + ·) (Finset.sum_congr rfl fun j _ => ?_)
  unfold pixMinAlong
  rw [dif_pos (tile_col_lt t j)]
  unfold pixMin
  exact congrArg (fun f => (Finset.univ : Finset (Fin 256)).fold min ⊤ f) (funext fun k => tile_sq m c t b k j)

/-- After step `n`: the per-bin minima over the first `1536·(n+1)` pixels, and the sums over them. -/
theorem acc_value (c : Dev nD) : ∀ (n : ℕ) (h : n < cfg0.N) (b : Fin 4),
    (∀ k : Fin 256, IsMinOfFirst (sqAlong (pixArr m c) (binArr m c) b k) (1536 * (n + 1)) (Acc.binAcc m c n h (ix2 b k)))
    ∧ ∀ z : Fin 1, Acc.sumAcc m c n h (ix2 b z) = ∑ i ∈ Finset.range (1536 * (n + 1)), pixMinAlong (pixArr m c) (binArr m c) b i
  | 0, h, b => by
    constructor
    · intro k
      have h0 := bins_step m c ⟨0, h⟩ (k0_pay1 (F := Ideal)) b k (by
        rw [Tile.binReset_apply]; exact isMinOfFirst_zero _)
      exact h0
    · intro z
      have h0 := sums_step m c ⟨0, h⟩ (k0_pay2 (F := Ideal)) b z (by
        rw [Tile.pixReset_apply]; exact Finset.sum_range_zero _ |>.symm)
      exact h0
  | n + 1, h, b => by
    obtain ⟨ihb, ihs⟩ := acc_value c n (Nat.lt_of_succ_lt h) b
    constructor
    · intro k
      have h1 := bins_step m c ⟨n + 1, h⟩ (Acc.binAcc m c n (Nat.lt_of_succ_lt h)) b k (ihb k)
      exact h1
    · intro z
      have h1 := sums_step m c ⟨n + 1, h⟩ (Acc.sumAcc m c n (Nat.lt_of_succ_lt h)) b z (ihs z)
      exact h1

/-- The last step's two results are the two mean distances. -/
theorem last_value (c : Dev nD) (t : Fin cfg0.N) (h1 : t.val % 50 = 49) :
    (outsAt0 m c t.val t.isLt).1 = binsToPixels (pixArr m c) (binArr m c)
    ∧ (outsAt0 m c t.val t.isLt).2.1 = pixelsToBins (pixArr m c) (binArr m c) := by
  have hN : cfg0.N = 50 := N_0
  have ht : t.val = 49 := by have := t.isLt; omega
  obtain ⟨e2, e3⟩ := Acc.last m c t h1
  rw [e2, e3]
  constructor
  · funext i
    obtain ⟨b, rfl⟩ : ∃ b : Fin 4, i = ix1 b := ⟨i 0, eq_ix1 i⟩
    rw [Tile.binMean_apply]
    unfold binsToPixels
    refine congrArg₂ Ideal.div (Finset.sum_congr rfl fun k _ => ?_) rfl
    refine binMin_eq_of_isMinOfFirst _ _ b k _ ?_
    have hv := (acc_value m c t.val t.isLt b).1 k
    rwa [show 1536 * (t.val + 1) = 76800 from by omega] at hv
  · funext i
    obtain ⟨b, rfl⟩ : ∃ b : Fin 4, i = ix1 b := ⟨i 0, eq_ix1 i⟩
    rw [Tile.pixMean_apply]
    unfold pixelsToBins
    refine congrArg₂ Ideal.div ?_ rfl
    rw [(acc_value m c t.val t.isLt b).2 0, show 1536 * (t.val + 1) = 76800 from by omega]
    exact sum_pixMin_eq _ _ b

end Cert.KernelIdeal.AccValue

end
-- ==== Proof.KernelResult.lean ====
/-
  The kernel's run, read: the call leaves in its two result arrays the two mean distances of the normalised pixel
  and bin arrays — only the last step writes them back, and its block is the whole four-entry array —, the host
  lines after the call add the two, sum over the four images, divide by 4 and multiply by 10, and the arguments
  end as they began.
-/
import proofs.«180755_j42812234006906_1_alg».proof.Proof.AccumulatorValue

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Chamfer Cert.KernelIdeal.AccValue

variable (m : (ℓ : Loc nD τ sig) → Buf (Elt Ideal) ℓ) (ρ : Dev nD → PrngReg)

/-- The last grid step. -/
abbrev tLast : Fin cfg0.N := ⟨49, by rw [show cfg0.N = 50 from N_0]; decide⟩

/-- Both result windows sit at block 0 of their four-entry arrays at every step. -/
theorem out_index2 : ∀ t : Fin cfg0.N, win0_2.index t 0 = 0 :=
  (by decide +kernel : ∀ t : Fin grid0.N, win0_2.index t 0 = 0)
theorem out_index3 : ∀ t : Fin cfg0.N, win0_3.index t 0 = 0 :=
  (by decide +kernel : ∀ t : Fin grid0.N, win0_3.index t 0 = 0)

/-- The one write-back of the first result writes the bins-to-pixels distances. -/
theorem flushed2 (c : Dev nD) (t : Fin cfg0.N) (hf : (cfg0.win 2).flush t = true) :
    (dats m 0 c).flushed 2 t = ((cfg0.win 2).blk t).view.read (Elt Ideal) (binsToPixels (pixArr m c) (binArr m c)) := by
  have h49 := (flush0_2 t).mp hf
  show (cfg0.win 2).cut (grid0.coords t) ((dats m 0 c).after 2 t) = _
  rw [after0_2, (last_value m c t h49).1]
  have hz' : (fun a => win0_2.index t a * main_v8_0.ty.shape.size a) = fun _ => 0 := funext fun a => by
    match a with
    | ⟨0, _⟩ => show win0_2.index t 0 * 4 = 0; rw [out_index2 t]
  exact (Memref.read_access_unit_zero (Elt Ideal) main_v8_0 hz' (fun a => by rw [congrFun hz' a]; simp)
    (binsToPixels (pixArr m c) (binArr m c))).symm

/-- The one write-back of the second result writes the pixels-to-bins distances. -/
theorem flushed3 (c : Dev nD) (t : Fin cfg0.N) (hf : (cfg0.win 3).flush t = true) :
    (dats m 0 c).flushed 3 t = ((cfg0.win 3).blk t).view.read (Elt Ideal) (pixelsToBins (pixArr m c) (binArr m c)) := by
  have h49 := (flush0_3 t).mp hf
  show (cfg0.win 3).cut (grid0.coords t) ((dats m 0 c).after 3 t) = _
  rw [after0_3, (last_value m c t h49).2]
  have hz' : (fun a => win0_3.index t a * main_v8_1.ty.shape.size a) = fun _ => 0 := funext fun a => by
    match a with
    | ⟨0, _⟩ => show win0_3.index t 0 * 4 = 0; rw [out_index3 t]
  exact (Memref.read_access_unit_zero (Elt Ideal) main_v8_1 hz' (fun a => by rw [congrFun hz' a]; simp)
    (pixelsToBins (pixArr m c) (binArr m c))).symm

/-- So the first result array ends at the bins-to-pixels distances: the last step's block covers it. -/
theorem final2 (c : Dev nD) : (dats m 0 c).arrAt 2 cfg0.N = binsToPixels (pixArr m c) (binArr m c) :=
  (dats m 0 c).arrAt_eq_of_cover 2 (binsToPixels (pixArr m c) (binArr m c)) (flushed2 m c) fun i =>
    ⟨tLast, (flush0_2 tLast).mpr rfl, by
      show i ∈ ((View.whole main_v8_0).slice (win0_2.rect tLast)).set
      rw [View.set_slice_whole, Rect.mem_set_unit]
      intro a
      have h0 : (i 0 : Nat) < 4 := (i 0).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 4 from by decide +kernel]; omega⟩

/-- And the second at the pixels-to-bins distances. -/
theorem final3 (c : Dev nD) : (dats m 0 c).arrAt 3 cfg0.N = pixelsToBins (pixArr m c) (binArr m c) :=
  (dats m 0 c).arrAt_eq_of_cover 3 (pixelsToBins (pixArr m c) (binArr m c)) (flushed3 m c) fun i =>
    ⟨tLast, (flush0_3 tLast).mpr rfl, by
      show i ∈ ((View.whole main_v8_1).slice (win0_3.rect tLast)).set
      rw [View.set_slice_whole, Rect.mem_set_unit]
      intro a
      have h0 : (i 0 : Nat) < 4 := (i 0).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 4 from by decide +kernel]; omega⟩

/-- The loss from the two per-image distances: their sum over the four images, over 4, times 10, as a one-entry array. -/
def lossOf (a b : FVec Ideal S4 .f32) : FVec Ideal S1 .f32 :=
  shapeCast S1 (mulf (Host.divf (F := Ideal) (Host.reduceAdd (F := Ideal) (addf a b) (constant (F := Ideal) S_ .f32 0x00000000#32) reducesTo_S4_S_d0 h_S_)
    (constant (F := Ideal) S_ .f32 0x40800000#32)) (constant (F := Ideal) S_ .f32 0x41200000#32)) shapeCasts_S_S1

/-- What the host lines after the call leave in the result. -/
theorem result_eq (c : Dev nD) :
    Pipeline.afterTail₀ cfgs (dats m) 0 (V0 m) [hostOps1] c main_v13
      = lossOf (binsToPixels (pixArr m c) (binArr m c)) (pixelsToBins (pixArr m c) (binArr m c)) := by
  unfold Pipeline.afterTail₀
  show StableHlo.after hostOps1 _ (Proc.devRef .tc main_v13) = _
  after_results
  have e2 : Pipeline.withArrays (cfgs 0).spec c (V0 m c) (fun w => (dats m 0 c).arrAt w (cfgs 0).N) (Proc.devRef .tc main_v8_0)
      = binsToPixels (pixArr m c) (binArr m c) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v8_1)
      = pixelsToBins (pixArr m c) (binArr m c) :=
    (Pipeline.withArrays_arr spec0 launch0.win.arr_inj c _ _ 3).trans (final3 m c)
  rw [e2, e3]
  rfl

/-- The kernel's run: the result at the loss of the two mean distances, the arguments as they were. -/
theorem run : θ_run defs (onTc (τ := τ) (main (F := Ideal))) ⟨m, fun _ => 0, ρ⟩ fun r => ∀ c : Dev nD,
      r.2.mem ((c.tc : Thread nD τ).loc main_v13)
        = lossOf (binsToPixels (pixArr m c) (binArr m c)) (pixelsToBins (pixArr m c) (binArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.ReferenceValue.lean ====
/-
  The reference, read: its two per-image distances are the two mean distances of `ChamferSpec` of ITS normalised
  pixel array (the input over its per-image maximum, flattened) and ITS normalised bin array (the bin centres over
  the same maximum). The reference forms the whole 4 × 256 × 76800 tensor of squared differences, takes the minimum
  over the pixels and over the bins in one reduction each, sums and divides.
-/
import proofs.«180755_j42812234006906_1_alg».proof.Proof.Gen.ReferenceIdeal.Read
import proofs.«180755_j42812234006906_1_alg».proof.Proof.ChamferSpec
import Idealize.ShloMosaic.PureOps.Reduce

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Chamfer

variable (x0 : S4x1x240x320.Idx → EReal) (x1 : S4x256.Idx → EReal)

/-- The reference's normalised pixel array and normalised bin array. -/
abbrev pixRef : SPix.Idx → EReal := val_main_v7 (F := Ideal) x0
abbrev binRef : SBin.Idx → EReal := val_main_v6 (F := Ideal) x0 x1

/-- The reference's squared-difference tensor, entry by entry. -/
theorem sq_apply (b : Fin 4) (k : Fin 256) (n : Fin 76800) :
    val_main_v13 (F := Ideal) x0 x1 (ix3 b k n) = sq (pixRef x0) (binRef x0 x1) b k n := by
  rw [val_main_v13_apply, val_main_v12_apply, val_main_v10_apply, val_main_v11_apply, val_main_v8_apply, val_main_v9_apply]
  rw [show idx_main_v8 (idx_main_v10 (ix3 b k n)) = ix2 b k from
      funext fun a => Fin.ext (by match a with | ⟨0, _⟩ => rfl | ⟨1, _⟩ => rfl),
    show idx_main_v9 (idx_main_v11 (ix3 b k n)) = ix2 b n from
      funext fun a => Fin.ext (by match a with | ⟨0, _⟩ => rfl | ⟨1, _⟩ => rfl)]
  rfl

theorem red_pix : S4x256x76800.Reduces [2] S4x256 := by decide
theorem red_bin : S4x256x76800.Reduces [1] S4x76800 := by decide

/-- The minimum over the pixels, per bin. -/
theorem binMin_apply (b : Fin 4) (k : Fin 256) :
    val_main_v14 (F := Ideal) x0 x1 (ix2 b k) = binMin (pixRef x0) (binRef x0 x1) b k := by
  unfold val_main_v14
  refine (Host.reduce_eq_fold_single (s := S4x256x76800) (t := S4x256) (a := 2) (u := S_) (FloatOps.minimumf (F := Ideal) (φ := .f32))
    (val_main_v13 (F := Ideal) x0 x1) (val_main_cst_0 (F := Ideal))
    Facts₀.reducesTo_S4x256x76800_S4x256_d2 red_pix Facts₀.h_S_ (ix2 b k)).trans ?_
  unfold binMin
  rw [show val_main_cst_0 (F := Ideal) (Shape.Idx.first Facts₀.h_S_) = (⊤ : EReal) from ofBits_inf]
  refine congrArg (fun f => (Finset.univ : Finset (Fin 76800)).fold min ⊤ f) (funext fun n => ?_)
  show val_main_v13 (F := Ideal) x0 x1 (red_pix.lift (ix2 b k) n) = _
  rw [show red_pix.lift (ix2 b k) n = ix3 b k n from
    funext fun a => Fin.ext (by match a with | ⟨0, _⟩ => rfl | ⟨1, _⟩ => rfl | ⟨2, _⟩ => rfl)]
  exact sq_apply x0 x1 b k n

/-- The minimum over the bins, per pixel. -/
theorem pixMin_apply (b : Fin 4) (n : Fin 76800) :
    val_main_v18 (F := Ideal) x0 x1 (ix2 b n) = pixMin (pixRef x0) (binRef x0 x1) b n := by
  unfold val_main_v18
  refine (Host.reduce_eq_fold_single (s := S4x256x76800) (t := S4x76800) (a := 1) (u := S_) (FloatOps.minimumf (F := Ideal) (φ := .f32))
    (val_main_v13 (F := Ideal) x0 x1) (val_main_cst_3 (F := Ideal))
    Facts₀.reducesTo_S4x256x76800_S4x76800_d1 red_bin Facts₀.h_S_ (ix2 b n)).trans ?_
  unfold pixMin
  rw [show val_main_cst_3 (F := Ideal) (Shape.Idx.first Facts₀.h_S_) = (⊤ : EReal) from ofBits_inf]
  refine congrArg (fun f => (Finset.univ : Finset (Fin 256)).fold min ⊤ f) (funext fun k => ?_)
  show val_main_v13 (F := Ideal) x0 x1 (red_bin.lift (ix2 b n) k) = _
  rw [show red_bin.lift (ix2 b n) k = ix3 b k n from
    funext fun a => Fin.ext (by match a with | ⟨0, _⟩ => rfl | ⟨1, _⟩ => rfl | ⟨2, _⟩ => rfl)]
  exact sq_apply x0 x1 b k n

/-- The reference's bins-to-pixels distances. -/
theorem binsToPixels_eq : val_main_v17 (F := Ideal) x0 x1 = binsToPixels (pixRef x0) (binRef x0 x1) := by
  funext i
  obtain ⟨b, rfl⟩ : ∃ b : Fin 4, i = ix1 b := ⟨i 0, eq_ix1 i⟩
  rw [val_main_v17_apply, val_main_v15_apply, val_main_v16_apply]
  unfold binsToPixels
  rw [show val_main_cst_1 (F := Ideal) (Shape.Idx.first Facts₀.h_S_) = (0 : EReal) from Ideal.ofBits_zero_f32, zero_add]
  refine congrArg₂ Ideal.div (Finset.sum_congr rfl fun k _ => ?_) rfl
  rw [show idx_main_v15 (ix1 b) k = ix2 b k from
    funext fun a => Fin.ext (by match a with | ⟨0, _⟩ => rfl | ⟨1, _⟩ => rfl)]
  exact binMin_apply x0 x1 b k

/-- The reference's pixels-to-bins distances. -/
theorem pixelsToBins_eq : val_main_v21 (F := Ideal) x0 x1 = pixelsToBins (pixRef x0) (binRef x0 x1) := by
  funext i
  obtain ⟨b, rfl⟩ : ∃ b : Fin 4, i = ix1 b := ⟨i 0, eq_ix1 i⟩
  rw [val_main_v21_apply, val_main_v19_apply, val_main_v20_apply]
  unfold pixelsToBins
  rw [show val_main_cst_4 (F := Ideal) (Shape.Idx.first Facts₀.h_S_) = (0 : EReal) from Ideal.ofBits_zero_f32, zero_add]
  refine congrArg₂ Ideal.div (Finset.sum_congr rfl fun n _ => ?_) rfl
  rw [show idx_main_v19 (ix1 b) n = ix2 b n from
    funext fun a => Fin.ext (by match a with | ⟨0, _⟩ => rfl | ⟨1, _⟩ => rfl)]
  exact pixMin_apply x0 x1 b n

end Cert.ReferenceIdeal.RefValue

end
-- ==== Proof.Equivalence.lean ====
/-
  Kernel and reference compute one loss.

  Both programs begin with the same host lines: each image's maximum, the pixels divided by it and flattened,
  the bin centres divided by it. So the kernel's call finds the very arrays the reference goes on with, and the
  two mean distances the call returns (`KernelResult`) are the two the reference computes (`ReferenceValue`):
  a minimum over all pixels taken tile by tile is the minimum taken at once, a sum of tile sums is the sum. Both
  then add the two distances, sum over the images, divide by 4 and multiply by 10.
-/
import proofs.«180755_j42812234006906_1_alg».proof.Defs
import proofs.«180755_j42812234006906_1_alg».proof.Proof.Gen.Kernel.Frame
import proofs.«180755_j42812234006906_1_alg».proof.Proof.KernelResult
import proofs.«180755_j42812234006906_1_alg».proof.Proof.ReferenceValue
import proofs.«180755_j42812234006906_1_alg».proof.Proof.Gen.Pre_finite_inputs
import Idealize.ShloMosaic.Lib.StableHlo.Run

noncomputable section

open Idealize.ShloMosaic Idealize.ShloMosaic.TcCoe Idealize.SL.Sem

namespace Cert.Equivalence

open Cert.Chamfer

variable (m : (ℓ : Loc Cert.KernelIdeal.nD Cert.KernelIdeal.τ Cert.KernelIdeal.sig) → Buf (Elt Ideal) ℓ)

/-- The pixel array the kernel's call finds is the reference's normalised pixel array of the same input. -/
theorem pixArr_eq (c : Dev Cert.KernelIdeal.nD) :
    Cert.KernelIdeal.AccValue.pixArr m c
      = Cert.ReferenceIdeal.RefValue.pixRef (m ((c.tc : Thread Cert.KernelIdeal.nD Cert.KernelIdeal.τ).loc Cert.KernelIdeal.main_arg0)) := by
  show StableHlo.after Cert.KernelIdeal.Gen.hostOps0 (fun b => m (c, b)) (Proc.devRef .tc Cert.KernelIdeal.main_v4) = _
  after_results
  rfl

/-- The bin array the kernel's call finds is the reference's normalised bin array of the same inputs. -/
theorem binArr_eq (c : Dev Cert.KernelIdeal.nD) :
    Cert.KernelIdeal.AccValue.binArr m c
      = Cert.ReferenceIdeal.RefValue.binRef (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v7) = _
  after_results
  rfl

/-- The reference's result is the same loss of ITS two distances. -/
theorem ref_loss (x0 : Cert.ReferenceIdeal.S4x1x240x320.Idx → EReal) (x1 : Cert.ReferenceIdeal.S4x256.Idx → EReal) :
    Cert.ReferenceIdeal.Read.val_main_v26 (F := Ideal) x0 x1
      = Cert.KernelIdeal.Result.lossOf (Cert.ReferenceIdeal.Read.val_main_v17 (F := Ideal) x0 x1)
          (Cert.ReferenceIdeal.Read.val_main_v21 (F := Ideal) x0 x1) := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree, both runs end at the loss of the same two mean distances. -/
theorem algebraic : Cert.algebraic_KernelIdeal_ReferenceIdeal := by
  intro m ρ m' ρ' _ hagree
  refine ⟨fun c => Cert.KernelIdeal.Result.lossOf
      (binsToPixels (Cert.KernelIdeal.AccValue.pixArr m c) (Cert.KernelIdeal.AccValue.binArr m c))
      (pixelsToBins (Cert.KernelIdeal.AccValue.pixArr m c) (Cert.KernelIdeal.AccValue.binArr m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2, ref_loss,
    Cert.ReferenceIdeal.RefValue.binsToPixels_eq, Cert.ReferenceIdeal.RefValue.pixelsToBins_eq]
  show _ = Cert.KernelIdeal.Result.lossOf
    (binsToPixels (Cert.KernelIdeal.AccValue.pixArr m c) (Cert.KernelIdeal.AccValue.binArr m c))
    (pixelsToBins (Cert.KernelIdeal.AccValue.pixArr m c) (Cert.KernelIdeal.AccValue.binArr m c))
  rw [pixArr_eq m c, binArr_eq m c]

end Cert.Equivalence

end
-- ==== Proof.lean ====
/- The certificate's claim assembled: the three frames (the two kernels' are generated; the reference's is its
   generated run with the result dropped), the empty idealization ledger, and the equivalence over the extended
   reals proved in `Proof/Equivalence.lean`: the kernel's tiled running minimum and running sum over the pixels are
   the reference's one-shot minimum and sum. -/
import proofs.«180755_j42812234006906_1_alg».proof.Defs
import proofs.«180755_j42812234006906_1_alg».proof.Proof.Gen.Kernel
import proofs.«180755_j42812234006906_1_alg».proof.Proof.Gen.Kernel.Skeleton
import proofs.«180755_j42812234006906_1_alg».proof.Proof.Gen.Kernel.Launch
import proofs.«180755_j42812234006906_1_alg».proof.Proof.Gen.Kernel.Points
import proofs.«180755_j42812234006906_1_alg».proof.Proof.Gen.Kernel.Frame
import proofs.«180755_j42812234006906_1_alg».proof.Proof.Gen.KernelIdeal
import proofs.«180755_j42812234006906_1_alg».proof.Proof.Gen.KernelIdeal.Skeleton
import proofs.«180755_j42812234006906_1_alg».proof.Proof.Gen.KernelIdeal.Launch
import proofs.«180755_j42812234006906_1_alg».proof.Proof.Gen.KernelIdeal.Points
import proofs.«180755_j42812234006906_1_alg».proof.Proof.Gen.KernelIdeal.Frame
import proofs.«180755_j42812234006906_1_alg».proof.Proof.Gen.ReferenceIdeal
import proofs.«180755_j42812234006906_1_alg».proof.Proof.Gen.Pre_finite_inputs
import proofs.«180755_j42812234006906_1_alg».proof.Proof.Gen.ReferenceIdeal.Run
import proofs.«180755_j42812234006906_1_alg».proof.Proof.Gen.ReferenceIdeal.Read
import proofs.«180755_j42812234006906_1_alg».proof.Proof.Equivalence
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Equivalence.frame_kernel, Cert.Equivalence.frame_kernelIdeal, Cert.Equivalence.frame_referenceIdeal, trivial, Cert.Equivalence.algebraic⟩

end Cert.Proof

end
